-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x4096x4096 .f32) (main_arg1 : FVec F S4x4096x4096 .f32) (main_arg2 : FVec F S4x4096x4096 .f32) (main_arg3 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S4x4096x4096 .f32 := Host.absf main_arg2
  let main_cst_2 : FVec F S_ .f32 := constant S_ .f32 0x7F800000#32
  let main_v10 : FVec F S4x4096x4096 .f32 := broadcastInDim S4x4096x4096 ![] bcast_S_S4x4096x4096 main_cst_2
  let main_v11 : IVec S4x4096x4096 1 := cmpf .olt main_v9 main_v10
  let main_c_3 : IVec S_ 1 := constantI S_ 1 1#1
  let main_v12 : IVec S_ 1 := (fun x v => Host.reduce IntOp.andi x v reducesTo_S4x4096x4096_S_d0_1_2 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x4096x4096 : Shape := ⟨3, ![4, 4096, 4096]⟩
abbrev S4096 : Shape := ⟨1, ![4096]⟩
abbrev S1x128x4096 : Shape := ⟨3, ![1, 128, 4096]⟩
abbrev S1x1x4096 : Shape := ⟨3, ![1, 1, 4096]⟩

abbrev nBuf : Space → Nat
  | .hbm => 5
  | .vmem => 9
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S4x4096x4096, .f32⟩
  | .hbm, ⟨3, _⟩ => ⟨S4096, .f32⟩
  | .hbm, ⟨4, _⟩ => ⟨S4x4096x4096, .f32⟩
  | .local _ .vmem, ⟨0, _⟩ => ⟨S1x128x4096, .f32⟩
  | .local _ .vmem, ⟨1, _⟩ => ⟨S1x128x4096, .f32⟩
  | .local _ .vmem, ⟨2, _⟩ => ⟨S1x128x4096, .f32⟩
  | .local _ .vmem, ⟨3, _⟩ => ⟨S1x128x4096, .f32⟩
  | .local _ .vmem, ⟨4, _⟩ => ⟨S1x128x4096, .f32⟩
  | .local _ .vmem, ⟨5, _⟩ => ⟨S1x128x4096, .f32⟩
  | .local _ .vmem, ⟨6, _⟩ => ⟨S4096, .f32⟩
  | .local _ .vmem, ⟨7, _⟩ => ⟨S1x128x4096, .f32⟩
  | .local _ .vmem, ⟨8, _⟩ => ⟨S1x128x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S4096_S4096_0 : ∀ a, (![0] : Fin 1 → Nat) a + S4096.size a ≤ S4096.size a
  h_S4096 : 0 < S4096.numel
  shapeCasts_S4096_S1x1x4096 : S4096.ShapeCasts S1x1x4096
  shapeCasts_S1x1x4096_S1x1x4096 : S1x1x4096.ShapeCasts S1x1x4096
  broadcasts_S1x1x4096_S1x128x4096 : S1x1x4096.Broadcasts S1x128x4096
  inb_S1x128x4096_S1x128x4096_0_0_0 : ∀ a, (![0, 0, 0] : Fin 3 → Nat) a + S1x128x4096.size a ≤ S1x128x4096.size a
  h_S1x128x4096 : 0 < S1x128x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S4x4096x4096.size a
  hwx0_0 : ∀ i : grid0.Coords, EltTy.bits .f32 = 32 ∨ (Rect.block (s := S4x4096x4096) S1x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x4096.size a ≤ S4x4096x4096.size a
  hwx0_1 : ∀ i : grid0.Coords, EltTy.bits .f32 = 32 ∨ (Rect.block (s := S4x4096x4096) S1x128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x4096.size a ≤ S4x4096x4096.size a
  hwx0_2 : ∀ i : grid0.Coords, EltTy.bits .f32 = 32 ∨ (Rect.block (s := S4x4096x4096) S1x128x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x4096.size a ≤ S4x4096x4096.size a
  hwx0_4 : ∀ i : grid0.Coords, EltTy.bits .f32 = 32 ∨ (Rect.block (s := S4x4096x4096) S1x128x4096.size (cc0_transform_4 i) (hinb0_4 i)).WholeWords (EltTy.packing .f32)

variable [Facts₀]

abbrev win0_0 : Pipeline.Window sig grid0 :=
  Pipeline.Window.ofSpec (Memref.whole main_arg0) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096 : Shape := ⟨1, ![4096]⟩
abbrev S1x1x4096 : Shape := ⟨3, ![1, 1, 4096]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S4x4096x4096, .f32⟩
  | .hbm, ⟨3, _⟩ => ⟨S4096, .f32⟩
  | .hbm, ⟨4, _⟩ => ⟨S4x4096x4096, .f32⟩
  | .hbm, ⟨5, _⟩ => ⟨S1x1x4096, .f32⟩
  | .hbm, ⟨6, _⟩ => ⟨S4x4096x4096, .f32⟩
  | .hbm, ⟨7, _⟩ => ⟨S4x4096x4096, .f32⟩
  | .hbm, ⟨8, _⟩ => ⟨S1x1x4096, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096x4096, .f32⟩
  | .hbm, ⟨14, _⟩ => ⟨S4x4096x4096, .f32⟩
  | .hbm, ⟨15, _⟩ => ⟨S1x1x4096, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S1x1x4096, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S1x1x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S1x1x4096, .f32⟩
  | .hbm, ⟨29, _⟩ => ⟨S4x4096x4096, .f32⟩
  | .hbm, ⟨30, _⟩ => ⟨S4x4096x4096, .f32⟩
  | .hbm, ⟨31, _⟩ => ⟨S1x1x4096, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S_, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096x4096, .f32⟩
  | .hbm, ⟨40, _⟩ => ⟨S4x4096x4096, .f32⟩
  | .hbm, ⟨41, _⟩ => ⟨S4x4096x4096, .f32⟩
  | .hbm, ⟨42, _⟩ => ⟨S4x4096x4096, .f32⟩
  | .hbm, ⟨43, _⟩ => ⟨S1x1x4096, .f32⟩
  | .hbm, ⟨44, _⟩ => ⟨S4x4096x4096, .f32⟩
  | .hbm, ⟨45, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_0 : Ref sig .tc := ⟨.hbm, 35, rfl⟩
abbrev main_v30 : Ref sig .tc := ⟨.hbm, 36, rfl⟩
abbrev main_v31 : Ref sig .tc := ⟨.hbm, 37, rfl⟩
abbrev main_cst_1 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)

variable [Facts₀]

class Facts : Prop extends Facts₀ where

variable [Facts]
-- ==== Proof.Burst.lean ====
/-
  One burst-mode integrate-and-fire step, as a function on the extended reals.

  For a membrane value `mem`, an input `x`, a running spike total `sc` and a threshold `th`:
    m      = mem + x
    k_pos  = max ⌈(m - th) / th⌉ 0                      (positive bursts)
    m₁     = m - k_pos · th                             (membrane after them)
    units  = round ((sc + k_pos · th) / th)             (negative-spike budget, ties to even)
    j      = max ⌈(-m₁ - th) / th⌉ 0                    (bursts the membrane asks for)
    k_neg  = min j (max units 0)
    spike  = (k_pos - k_neg) · th
  Ceiling and rounding fix the two infinities; the quotient is the extended-real quotient of the
  exact instance. `spikes` applies the step at every index of a [4, 4096, 4096] array, the
  threshold read along the last axis.
-/
import Idealize.ShloMosaic.PureOps.Ideal
import Idealize.ShloMosaic.PureOps.Ideal.Laws
import Idealize.ShloMosaic.Lib.ValueIdx

noncomputable section

namespace Cert.Burst

open Idealize.ShloMosaic Idealize.ShloMosaic.ValueIdx

/-- The number of positive bursts: the least `k ≥ 0` with `m - k · th ≤ th`. -/
def kPos (m th : EReal) : EReal := max (Ideal.liftRound Int.ceil (Ideal.div (m - th) th)) 0

/-- One step: the signed spike output `(k_pos - k_neg) · th`. -/
def spike (mem x sc th : EReal) : EReal :=
  (kPos (mem + x) th
      - min (max (Ideal.liftRound Int.ceil (Ideal.div (-(mem + x - kPos (mem + x) th * th) - th) th)) 0)
            (max (Ideal.liftRound Ideal.roundHalfEven (Ideal.div (sc + kPos (mem + x) th * th) th)) 0))
    * th

/-- The step at every index of the array; the threshold depends on the last coordinate only. -/
def spikes (x mem sc : (⟨3, ![4, 4096, 4096]⟩ : Shape).Idx → EReal) (th : (⟨1, ![4096]⟩ : Shape).Idx → EReal) :
    (⟨3, ![4, 4096, 4096]⟩ : Shape).Idx → EReal :=
  fun i => spike (mem i) (x i) (sc i) (th (ix1 (i 2)))

/-- On the extended reals `0 - a` is `-a`, at the infinities too: subtraction is adding the negative. -/
theorem zero_sub_ereal (a : EReal) : (0 : EReal) - a = -a := by
  rw [sub_eq_add_neg, zero_add]

end Cert.Burst

end
-- ==== Proof.KernelPoint.lean ====
/-
  The kernel body at one element of a block.

  The body loads the threshold row `th : [4096]`, re-lays it as [1, 1, 4096] and broadcasts it over the
  128 rows of the block; every other operation is pointwise. So the stored value at block index
  `y = (0, r, h)` is the burst step of the three loaded blocks at `y` and of `th h`
  (`Cert.Burst.spike`). The one difference in spelling from the step — the body writes `0 - m₁` for
  `-m₁` — is no difference on the extended reals.
-/
import proofs.«156640_j36558761624015_1_alg».proof.Proof.Gen.KernelIdeal.Skeleton
import proofs.«156640_j36558761624015_1_alg».proof.Proof.Burst
import Idealize.ShloMosaic.Lib.Pipeline.Value
import Idealize.ShloMosaic.Lib.ValueIdx
import Idealize.ShloMosaic.PureOps.Ideal.Laws

noncomputable section

namespace Cert.KernelIdeal.Burst

open Cert.KernelIdeal Cert.KernelIdeal.Gen Idealize.ShloMosaic Idealize.ShloMosaic.ValueIdx Cert.Burst

/-- The threshold row, re-laid as [1, 1, 4096] and broadcast to the block's shape, read at `y`: the row at
    `y`'s last coordinate. -/
theorem threshold_block_apply {F : FTy → Type} [FloatOps F] (th : Vec F S4096 .f32) (y : S1x128x4096.Idx) :
    broadcastTo S1x128x4096 (shapeCast S1x1x4096 (shapeCast S1x1x4096 th shapeCasts_S4096_S1x1x4096)
      shapeCasts_S1x1x4096_S1x1x4096) broadcasts_S1x1x4096_S1x128x4096 y = th (ix1 (y 2)) := by
  have h2 : (y 2).val < 4096 := (y 2).isLt
  refine (broadcastTo_apply _ _ y (ix3 (0 : Fin 1) (0 : Fin 1) (y 2)) (fun a => match a with
    | ⟨0, _⟩ => by show 0 = (if (1 : Nat) = 1 then 0 else (y 0).val); rw [if_pos rfl]
    | ⟨1, _⟩ => by show 0 = (if (1 : Nat) = 1 then 0 else (y 1).val); rw [if_pos rfl]
    | ⟨2, _⟩ => by show (y 2).val = (if (4096 : Nat) = 1 then 0 else (y 2).val); rw [if_neg (by decide)])).trans ?_
  refine (shapeCast_apply _ _ (ix3 (0 : Fin 1) (0 : Fin 1) (y 2)) (ix3 (0 : Fin 1) (0 : Fin 1) (y 2)) rfl).trans ?_
  exact shapeCast_apply _ _ (ix3 (0 : Fin 1) (0 : Fin 1) (y 2)) (ix1 (y 2))
    (by rw [Shape.rowMajor_val_one, Shape.rowMajor_val_three]; show (y 2).val = (0 * 1 + 0) * 4096 + (y 2).val; omega)

/-- Ceiling, read at an index. -/
theorem ceil_apply {s : Shape} {φ : FTy} (a : FVec Ideal s φ) (i : s.Idx) : ceil a i = Ideal.liftRound Int.ceil (a i) := rfl

/-- Rounding to nearest, ties to even, read at an index. -/
theorem roundeven_apply {s : Shape} {φ : FTy} (a : FVec Ideal s φ) (i : s.Idx) :
    roundeven a i = Ideal.liftRound Ideal.roundHalfEven (a i) := rfl

/-- The stored value at a block index, at the exact instance: the burst step of the loaded values there. -/
theorem payload_apply (th : Vec Ideal S4096 .f32) (mem x sc : Vec Ideal S1x128x4096 .f32) (y : S1x128x4096.Idx) :
    k0_pay1 (F := Ideal) th mem x sc y = spike (mem y) (x y) (sc y) (th (ix1 (y 2))) := by
  have hth := threshold_block_apply (F := Ideal) th y
  have hz : Scalar.ofBits (F := Ideal) .f32 0x00000000#32 = (0 : EReal) := Ideal.ofBits_zero_f32
  unfold k0_pay1 spike kPos
  generalize broadcastTo S1x128x4096 (shapeCast S1x1x4096 (shapeCast S1x1x4096 th shapeCasts_S4096_S1x1x4096)
    shapeCasts_S1x1x4096_S1x1x4096) broadcasts_S1x1x4096_S1x128x4096 = thb at hth ⊢
  rw [← hth]
  simp only [mulf_apply, subf_apply, addf_apply, divf_apply, maximumf_apply, minimumf_apply, broadcast_apply,
    ceil_apply, roundeven_apply, hz, zero_sub_ereal]

end Cert.KernelIdeal.Burst

end
-- ==== Proof.KernelArray.lean ====
/-
  The kernel's result array as one function of the argument arrays.

  The grid is 4 × 32: point `(b, s)` stages rows `128·s … 128·s + 127` of batch `b` of each of the three
  [4, 4096, 4096] arguments, the whole threshold row, and writes back the same rows of the result. Every
  window but the threshold's moves with the output's, so what point `t` writes back is block `t` of
  `Cert.Burst.spikes` of the argument arrays; the 128 blocks tile the result, so after the run the result
  array IS `spikes` of the arguments.
-/
import proofs.«156640_j36558761624015_1_alg».proof.Proof.Gen.KernelIdeal.Value
import proofs.«156640_j36558761624015_1_alg».proof.Proof.KernelPoint

set_option maxRecDepth 16384

noncomputable section

namespace Cert.KernelIdeal.Burst

open Cert.KernelIdeal Cert.KernelIdeal.Gen Cert.KernelIdeal.Value Idealize.ShloMosaic Idealize.ShloMosaic.TcCoe Idealize.SL.Sem
open Idealize.ShloMosaic.ValueIdx Cert.Burst
open Idealize.ShloMosaic.Pipeline (Dat)

variable (m : (ℓ : Loc nD τ sig) → Buf (Elt Ideal) ℓ) (ρ : Dev nD → PrngReg)

theorem origin3 : (![0, 0, 0] : Fin 3 → Nat) = fun _ => 0 := funext fun a => by fin_cases a <;> rfl
theorem origin1 : (![0] : Fin 1 → Nat) = fun _ => 0 := funext fun a => by fin_cases a <;> rfl

/-- The index maps, decided over the 128 grid points: the three array windows sit on the output's block, the
    threshold window and every last-axis block index are 0, and the output's block indices stay in range. -/
theorem windows_aligned : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = win0_4.index t (1 : Fin 3)
    ∧ win0_1.index t (2 : Fin 3) = 0
    ∧ win0_2.index t (0 : Fin 3) = win0_4.index t (0 : Fin 3) ∧ win0_2.index t (1 : Fin 3) = win0_4.index t (1 : Fin 3)
    ∧ win0_2.index t (2 : Fin 3) = 0
    ∧ win0_3.index t (0 : Fin 1) = 0
    ∧ win0_4.index t (2 : Fin 3) = 0
    ∧ win0_4.index t (0 : Fin 3) ≤ 3 ∧ win0_4.index t (1 : Fin 3) ≤ 31 :=
  (by decide +kernel : ∀ t : Fin grid0.N, _)

/-- Every (batch, row-block) pair is some grid point's output block. -/
theorem blocks_onto : ∀ (q0 : Fin 4) (q1 : Fin 32), ∃ t : Fin cfg0.N, win0_4.index t = ![q0.val, q1.val, 0] :=
  (by decide +kernel : ∀ (q0 : Fin 4) (q1 : Fin 32), ∃ t : Fin grid0.N, win0_4.index t = ![q0.val, q1.val, 0])

/-- What point `t` writes back is block `t` of `spikes` of the argument arrays as the region finds them. -/
theorem flushed_eq (c : Dev nD) (t : Fin cfg0.N) :
    (dats m 0 c).flushed 4 t = ((cfg0.win 4).blk t).view.read (Elt Ideal)
      (spikes (V m c main_arg0) (V m c main_arg1) (V m c main_arg2) (V m c main_arg3)) := by
  rw [flushed4]
  unfold out0_4
  rw [View.canon_unit_zero origin3]
  simp only [View.ld_unit_zero (S := S1x128x4096) origin3, View.ld_unit_zero (S := S4096) origin1]
  obtain ⟨a00, a01, a02, a10, a11, a12, a20, a21, a22, a3, o2, -, -⟩ := windows_aligned t
  funext j
  show k0_pay1 (F := Ideal) (iblk m c 3 t) (iblk m c 1 t) (iblk m c 0 t) (iblk m c 2 t) j
      = spikes (V m c main_arg0) (V m c main_arg1) (V m c main_arg2) (V m c main_arg3) (((cfg0.win 4).blk t).view.emb j)
  refine (payload_apply (iblk m c 3 t) (iblk m c 1 t) (iblk m c 0 t) (iblk m c 2 t) j).trans ?_
  unfold spikes
  have h0 : ((cfg0.win 0).blk t).view.emb j = ((cfg0.win 4).blk t).view.emb j := by
    funext a; apply Fin.ext
    match a with
    | ⟨0, _⟩ => show win0_0.index t (0 : Fin 3) * 1 + 1 * (j 0).val = win0_4.index t (0 : Fin 3) * 1 + 1 * (j 0).val; omega
    | ⟨1, _⟩ => show win0_0.index t (1 : Fin 3) * 128 + 1 * (j 1).val = win0_4.index t (1 : Fin 3) * 128 + 1 * (j 1).val; omega
    | ⟨2, _⟩ => show win0_0.index t (2 : Fin 3) * 4096 + 1 * (j 2).val = win0_4.index t (2 : Fin 3) * 4096 + 1 * (j 2).val; omega
  have h1 : ((cfg0.win 1).blk t).view.emb j = ((cfg0.win 4).blk t).view.emb j := by
    funext a; apply Fin.ext
    match a with
    | ⟨0, _⟩ => show win0_1.index t (0 : Fin 3) * 1 + 1 * (j 0).val = win0_4.index t (0 : Fin 3) * 1 + 1 * (j 0).val; omega
    | ⟨1, _⟩ => show win0_1.index t (1 : Fin 3) * 128 + 1 * (j 1).val = win0_4.index t (1 : Fin 3) * 128 + 1 * (j 1).val; omega
    | ⟨2, _⟩ => show win0_1.index t (2 : Fin 3) * 4096 + 1 * (j 2).val = win0_4.index t (2 : Fin 3) * 4096 + 1 * (j 2).val; omega
  have h2 : ((cfg0.win 2).blk t).view.emb j = ((cfg0.win 4).blk t).view.emb j := by
    funext a; apply Fin.ext
    match a with
    | ⟨0, _⟩ => show win0_2.index t (0 : Fin 3) * 1 + 1 * (j 0).val = win0_4.index t (0 : Fin 3) * 1 + 1 * (j 0).val; omega
    | ⟨1, _⟩ => show win0_2.index t (1 : Fin 3) * 128 + 1 * (j 1).val = win0_4.index t (1 : Fin 3) * 128 + 1 * (j 1).val; omega
    | ⟨2, _⟩ => show win0_2.index t (2 : Fin 3) * 4096 + 1 * (j 2).val = win0_4.index t (2 : Fin 3) * 4096 + 1 * (j 2).val; omega
  have h3 : ((cfg0.win 3).blk t).view.emb (ix1 (j 2)) = ix1 ((((cfg0.win 4).blk t).view.emb j) 2) := by
    funext a; apply Fin.ext
    match a with
    | ⟨0, _⟩ => show win0_3.index t (0 : Fin 1) * 4096 + 1 * (j 2).val = win0_4.index t (2 : Fin 3) * 4096 + 1 * (j 2).val; omega
  show spike (V m c main_arg1 (((cfg0.win 1).blk t).view.emb j)) (V m c main_arg0 (((cfg0.win 0).blk t).view.emb j))
      (V m c main_arg2 (((cfg0.win 2).blk t).view.emb j)) (V m c main_arg3 (((cfg0.win 3).blk t).view.emb (ix1 (j 2)))) = _
  rw [h0, h1, h2, h3]
  rfl

/-- An index of the result array is in point `t`'s block iff each coordinate is in the block's range on its axis. -/
theorem mem_block (t : Fin cfg0.N) (i : S4x4096x4096.Idx) :
    i ∈ ((cfg0.win 4).blk t).view.set ↔ ∀ a : Fin 3, win0_4.index t a * S1x128x4096.size a ≤ (i a).val
      ∧ (i a).val < win0_4.index t a * S1x128x4096.size a + S1x128x4096.size a := by
  show i ∈ ((View.whole main_v0).slice (win0_4.rect t)).set ↔ _
  rw [View.set_slice_whole, Rect.mem_set_unit]
  exact Iff.rfl

/-- The blocks tile the result: index `(b, r, h)` lies in the block of the point with block index `(b, r / 128, 0)`. -/
theorem covered (i : S4x4096x4096.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 4096 := (i 2).isLt
  obtain ⟨t, ht⟩ := blocks_onto ⟨(i 0).val, hi0⟩ ⟨(i 1).val / 128, by omega⟩
  have q0 : win0_4.index t (0 : Fin 3) = (i 0).val := congrFun ht 0
  have q1 : win0_4.index t (1 : Fin 3) = (i 1).val / 128 := congrFun ht 1
  have q2 : win0_4.index t (2 : Fin 3) = 0 := congrFun ht 2
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 4096 ≤ (i 2).val ∧ (i 2).val < win0_4.index t (2 : Fin 3) * 4096 + 4096; omega

/-- The result array after the run is `spikes` of the argument arrays. -/
theorem result_array (c : Dev nD) :
    (dats m 0 c).arrAt 4 cfg0.N = spikes (m ((c : Thread nD τ).loc main_arg0)) (m ((c : Thread nD τ).loc main_arg1))
      (m ((c : Thread nD τ).loc main_arg2)) (m ((c : Thread nD τ).loc main_arg3)) :=
  (dats m 0 c).arrAt_eq_of_cover 4 _ (fun t _ => flushed_eq m c t) covered

/-- Every weakly fair execution of the kernel program terminates with the result array at `spikes` of the argument
    arrays, the arguments unchanged. -/
theorem run : θ_run defs (onTc (τ := τ) (main (F := Ideal))) ⟨m, fun _ => 0, ρ⟩ fun r => ∀ c : Dev nD,
      r.2.mem ((c : Thread nD τ).loc main_v0) = spikes (m ((c : Thread nD τ).loc main_arg0))
        (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_array m c), (h c).2⟩) (run_blocks m ρ)

end Cert.KernelIdeal.Burst

end
-- ==== Proof.RefArray.lean ====
/-
  The reference's result as the same function of the argument arrays.

  Every operation of the reference is pointwise over [4, 4096, 4096] except the threshold's two broadcasts
  ([4096] → [1, 1, 4096] → [4, 4096, 4096]), which read the row at the index's last coordinate. Read index by
  index, the last stage is the burst step of the arguments at that index: the host's quotient, ceiling,
  rounding and negation are the exact instance's own, and the reference writes `-m₁` where the kernel
  writes `0 - m₁`.
-/
import proofs.«156640_j36558761624015_1_alg».proof.Proof.Gen.ReferenceIdeal.Read
import proofs.«156640_j36558761624015_1_alg».proof.Proof.Burst
import Idealize.ShloMosaic.PureOps.Ideal.Laws

noncomputable section

namespace Cert.ReferenceIdeal.Burst

open Cert.ReferenceIdeal Cert.ReferenceIdeal.Gen Cert.ReferenceIdeal.Read Idealize.ShloMosaic Idealize.ShloMosaic.ValueIdx Cert.Burst

/-- An index of the threshold row whose one coordinate is `i`'s last is `ix1 (i 2)`. -/
theorem lane_eq (i : S4x4096x4096.Idx) (z : S4096.Idx) (h : (z 0).val = (i 2).val) : z = ix1 (i 2) := by
  funext a; apply Fin.ext
  match a with
  | ⟨0, _⟩ => exact h

/-- The reference's last stage is `spikes` of its arguments. -/
theorem result_eq (x0 x1 x2 : (⟨S4x4096x4096, .f32⟩ : BufTy).Contents (Elt Ideal)) (x3 : (⟨S4096, .f32⟩ : BufTy).Contents (Elt Ideal)) :
    val_main_v38 (F := Ideal) x0 x1 x2 x3 = spikes x0 x1 x2 x3 := by
  funext i
  have e2 : idx_main_v1 (idx_main_v2 i) = ix1 (i 2) := lane_eq i _ rfl
  have e5 : idx_main_v4 (idx_main_v5 i) = ix1 (i 2) := lane_eq i _ rfl
  have e11 : idx_main_v10 (idx_main_v11 i) = ix1 (i 2) := lane_eq i _ rfl
  have e15 : idx_main_v14 (idx_main_v15 i) = ix1 (i 2) := lane_eq i _ rfl
  have e19 : idx_main_v18 (idx_main_v19 i) = ix1 (i 2) := lane_eq i _ rfl
  have e24 : idx_main_v23 (idx_main_v24 i) = ix1 (i 2) := lane_eq i _ rfl
  have e27 : idx_main_v26 (idx_main_v27 i) = ix1 (i 2) := lane_eq i _ rfl
  have e37 : idx_main_v36 (idx_main_v37 i) = ix1 (i 2) := lane_eq i _ rfl
  simp only [val_main_v38_apply, val_main_v37_apply, val_main_v36_apply, val_main_v35_apply, val_main_v34_apply,
    val_main_v33_apply, val_main_v32_apply, val_main_cst_1_apply, val_main_v31_apply, val_main_v30_apply,
    val_main_cst_0_apply, val_main_v29_apply, val_main_v28_apply, val_main_v27_apply, val_main_v26_apply,
    val_main_v25_apply, val_main_v24_apply, val_main_v23_apply, val_main_v22_apply, val_main_v21_apply,
    val_main_v20_apply, val_main_v19_apply, val_main_v18_apply, val_main_v17_apply, val_main_v16_apply,
    val_main_v15_apply, val_main_v14_apply, val_main_v13_apply, val_main_v12_apply, val_main_v11_apply,
    val_main_v10_apply, val_main_v9_apply, val_main_v8_apply, val_main_cst_apply, val_main_v7_apply,
    val_main_v6_apply, val_main_v5_apply, val_main_v4_apply, val_main_v3_apply, val_main_v2_apply,
    val_main_v1_apply, val_main_v0_apply]
  simp only [e2, e5, e11, e15, e19, e24, e27, e37, Ideal.addf_def, Ideal.subf_def, Ideal.mulf_def, Ideal.hostDivf_def,
    Ideal.maximumf_def, Ideal.minimumf_def, Ideal.hostUnary_ceil_def, Ideal.hostUnary_roundeven_def, Ideal.hostNegf_def,
    Ideal.negf_def, Ideal.ofBits_def, Ideal.ofBits_zero_f32]
  rfl

end Cert.ReferenceIdeal.Burst

end
-- ==== Proof.lean ====
/-
  Burst-mode integrate-and-fire, one step, over f32[4, 4096, 4096] with a per-channel threshold f32[4096]:
  a tiled elementwise kernel against the same formula written with jnp.

  With m = mem + x, k_pos = max ⌈(m - th)/th⌉ 0, m₁ = m - k_pos·th, units = round((sc + k_pos·th)/th),
  j = max ⌈(-m₁ - th)/th⌉ 0 and k_neg = min j (max units 0), both programs return (k_pos - k_neg)·th, the
  threshold read along the last axis (`Cert.Burst.spike`, `Cert.Burst.spikes`).

  * The kernel (grid 4 × 32, blocks of 128 rows) applies the step pointwise to each block; its blocks tile
    the result, so its result array is `spikes` of the arguments (Proof/KernelPoint.lean, Proof/KernelArray.lean,
    over the generated frame run and value leg).
  * The reference's last stage, read index by index, is `spikes` of its arguments (Proof/RefArray.lean, over
    the generated run and read-at-an-index lemmas).
  * On the extended reals the two spell the same function: ceiling, rounding to even and the quotient are one
    function on the host and in the kernel, and the kernel's `0 - m₁` is the reference's `-m₁` at the
    infinities too. No law that needs finite inputs is used, so the precondition is never opened.
  * The ideal pass rewrote nothing, so `preserves` is `True`. The frames of the two kernel programs are the
    generated ones; the reference's frame is its run with the result dropped.
-/
import proofs.«156640_j36558761624015_1_alg».proof.Defs
import proofs.«156640_j36558761624015_1_alg».proof.Proof.Gen.Kernel
import proofs.«156640_j36558761624015_1_alg».proof.Proof.Gen.Kernel.Skeleton
import proofs.«156640_j36558761624015_1_alg».proof.Proof.Gen.Kernel.Launch
import proofs.«156640_j36558761624015_1_alg».proof.Proof.Gen.Kernel.Points
import proofs.«156640_j36558761624015_1_alg».proof.Proof.Gen.Kernel.Frame
import proofs.«156640_j36558761624015_1_alg».proof.Proof.Gen.KernelIdeal
import proofs.«156640_j36558761624015_1_alg».proof.Proof.Gen.KernelIdeal.Skeleton
import proofs.«156640_j36558761624015_1_alg».proof.Proof.Gen.KernelIdeal.Launch
import proofs.«156640_j36558761624015_1_alg».proof.Proof.Gen.KernelIdeal.Points
import proofs.«156640_j36558761624015_1_alg».proof.Proof.Gen.KernelIdeal.Frame
import proofs.«156640_j36558761624015_1_alg».proof.Proof.Gen.ReferenceIdeal
import proofs.«156640_j36558761624015_1_alg».proof.Proof.Gen.Pre_finite_inputs
import proofs.«156640_j36558761624015_1_alg».proof.Proof.Gen.KernelIdeal.Value
import proofs.«156640_j36558761624015_1_alg».proof.Proof.Gen.ReferenceIdeal.Run
import proofs.«156640_j36558761624015_1_alg».proof.Proof.Gen.ReferenceIdeal.Read
import proofs.«156640_j36558761624015_1_alg».proof.Proof.KernelArray
import proofs.«156640_j36558761624015_1_alg».proof.Proof.RefArray
import Idealize.ShloMosaic.Adequacy
import Idealize.ShloMosaic.Init

noncomputable section

namespace Cert.Proof

open Idealize.ShloMosaic Idealize.SL.Sem

/-- The word-level kernel terminates, faults nowhere and leaves its arguments as they were. -/
theorem frame_kernel : Cert.frame_Kernel := fun m ρ _ => Cert.Kernel.Gen.frame m ρ

/-- So does the kernel read at the exact instance. -/
theorem frame_kernel_ideal : Cert.frame_KernelIdeal := fun m ρ _ => Cert.KernelIdeal.Gen.frame m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments, the kernel's result array and the reference's are both
    `spikes` of those arguments. -/
theorem algebraic : Cert.algebraic_KernelIdeal_ReferenceIdeal := by
  intro m ρ m' ρ' _ hagree
  refine ⟨_, Cert.KernelIdeal.Burst.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.Burst.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
